-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : FVec F S256x512 .f32) (main_arg1 : FVec F S512x256 .f32) (main_arg2 : FVec F S256 .f32) (main_arg3 : FVec F S100000x256 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S256x256 : Shape := ⟨2, ![256, 256]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S256, .f32⟩
  | .hbm, ⟨3, _⟩ => ⟨S100000x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S1x256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .local _ .vmem, ⟨0, _⟩ => ⟨S256x256, .f32⟩
  | .local _ .vmem, ⟨1, _⟩ => ⟨S2000x256, .f32⟩
  | .local _ .vmem, ⟨2, _⟩ => ⟨S2000x256, .f32⟩
  | .local _ .vmem, ⟨3, _⟩ => ⟨S1x256, .f32⟩
  | .local _ .vmem, ⟨4, _⟩ => ⟨S1x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  transposes_S256x256_S256x256_1_0 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  reduces_S256x256_S256 : S256x256.Reduces [0] S256
  shapeCasts_S256_S1x256 : S256.ShapeCasts S1x256
  reduces_S2000x256_S2000 : S2000x256.Reduces [1] S2000
  shapeCasts_S2000_S2000x1 : S2000.ShapeCasts S2000x1
  bitsLt_bf16_f32 : FTy.bits .bf16 < FTy.bits .f32
  broadcasts_S2000x1_S2000x256 : S2000x1.Broadcasts S2000x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  dot_S256x512_S512x256_S256x256_1_0_0_1_n_n_wf : DotDims.WF S256x512 S512x256 S256x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v4) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S256x256 : Shape := ⟨2, ![256, 256]⟩
abbrev S1x256 : Shape := ⟨2, ![1, 256]⟩
abbrev S_ : Shape := ⟨0, ![]⟩
abbrev S256x1 : Shape := ⟨2, ![256, 1]⟩
abbrev S100000 : Shape := ⟨1, ![100000]⟩
abbrev S1x100000 : Shape := ⟨2, ![1, 100000]⟩
abbrev S256x100000 : Shape := ⟨2, ![256, 100000]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S256, .f32⟩
  | .hbm, ⟨3, _⟩ => ⟨S100000x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S100000x256, .f32⟩
  | .hbm, ⟨13, _⟩ => ⟨S_, .f32⟩
  | .hbm, ⟨14, _⟩ => ⟨S100000, .f32⟩
  | .hbm, ⟨15, _⟩ => ⟨S1x100000, .f32⟩
  | .hbm, ⟨16, _⟩ => ⟨S256x100000, .f32⟩
  | .hbm, ⟨17, _⟩ => ⟨S256x100000, .f32⟩
  | .hbm, ⟨18, _⟩ => ⟨S256x100000, .f32⟩
  | .hbm, ⟨19, _⟩ => ⟨S256x100000, .f32⟩
  | .hbm, ⟨20, _⟩ => ⟨S256x100000, .f32⟩
  | .hbm, ⟨21, _⟩ => ⟨S_, .f32⟩
  | .hbm, ⟨22, _⟩ => ⟨S256x100000, .f32⟩
  | .hbm, ⟨23, _⟩ => ⟨S256x100000, .f32⟩
  | .hbm, ⟨24, _⟩ => ⟨S256x100000, .f32⟩
  | .hbm, ⟨25, _⟩ => ⟨S_, .f32⟩
  | .hbm, ⟨26, _⟩ => ⟨S256x100000, .f32⟩
  | .hbm, ⟨27, _⟩ => ⟨S256x100000, .f32⟩
  | .hbm, ⟨28, _⟩ => ⟨S256x100000, .f32⟩
  | .hbm, ⟨29, _⟩ => ⟨S_, .f32⟩
  | .hbm, ⟨30, _⟩ => ⟨S256x100000, .f32⟩
  | .hbm, ⟨31, _⟩ => ⟨S256x100000, .f32⟩
  | .hbm, ⟨32, _⟩ => ⟨S256x100000, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d1 : S256x256.ReducesTo [1] S256
  h_S_ : 0 < S_.numel
  bcast_S256_S256x1_0 : S256.BroadcastsInDim S256x1 (![0] : Fin 1 → Fin S256x1.rank)
  reducesTo_S100000x256_S100000_d1 : S100000x256.ReducesTo [1] S100000
  bcast_S100000_S1x100000_1 : S100000.BroadcastsInDim S1x100000 (![1] : Fin 1 → Fin S1x100000.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  transposes_S100000x256_S256x100000_1_0 : S100000x256.Transposes [1, 0] S256x100000
  bcast_S_S256x100000 : S_.BroadcastsInDim S256x100000 (![] : Fin 0 → Fin S256x100000.rank)
  reducesTo_S256x100000_S256_d1 : S256x100000.ReducesTo [1] S256
  bcast_S_S256 : S_.BroadcastsInDim S256 (![] : Fin 0 → Fin S256.rank)
  dot_S256x512_S512x256_S256x256_1_0_0_1_n_n_wf : DotDims.WF S256x512 S512x256 S256x256 [1] [0] [0] [1] [] []
  dot_S256x256_S256x100000_S256x100000_1_0_0_1_n_n_wf : DotDims.WF S256x256 S256x100000 S256x100000 [1] [0] [0] [1] [] []

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x100000_S256x100000_1_0_0_1_n_n : DotDims S256x256 S256x100000 S256x100000 where
  lhsContracting := [1]
  rhsContracting := [0]
  lhsNonContracting := [0]
  rhsNonContracting := [1]
  lhsBatch := []
  rhsBatch := []
  wf := dot_S256x256_S256x100000_S256x100000_1_0_0_1_n_n_wf

class Facts : Prop extends Facts₀ where

variable [Facts]
-- ==== Proof.Pieces.lean ====
/-
  What one run of the kernel body leaves behind, case by case. The body keeps a [1, 256] row of partial sums in a
  scratch buffer that survives from one grid point to the next: at the first point it clears the row and then adds
  the point's tile sum to it, at every later point it adds the tile sum to what the point before left, and at the
  last point it also copies the row into the output block. So whichever case a point is in, the row it leaves is ONE
  function `k0_pay2` of the resident operand, the point's corpus tile and the row it started from (the cleared row
  `k0_pay1` at the first point), and the output block written at the last point is that same row.
-/
import proofs.«103835_j74526272520307_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- A middle point: the row left is the tile sum added to the row found. -/
theorem scratch_B (c : Dev nD) (i : grid0.Coords) (a1 : Memref sig .tc .vmem S256x256 .f32) (h1 : a1.IsWhole)
    (a2 : Memref sig .tc .vmem S2000x256 .f32) (h2 : a2.IsWhole) (a3 : Memref sig .tc .vmem S1x256 .f32) (h3 : a3.IsWhole)
    (a4 : Memref sig .tc .vmem S1x256 .f32) (h4 : a4.IsWhole) (hc0 : ¬cond0_0 i) (hc1 : ¬cond0_1 i)
    (x0 : Vec F S256x256 .f32) (x1 : Vec F S2000x256 .f32) (xs0 : Vec F S1x256 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero (S := S1x256) hz]
  simp only [View.readAt_eq_ld, h1.read_unread, h2.read_unread, h4.read_unread, View.ld_unit_zero (S := S256x256) hz, View.ld_unit_zero (S := S2000x256) hz, View.ld_unit_zero (S := S1x256) hz]

/-- The first point: the row is cleared first, so the row left is the tile sum added to the cleared row. -/
theorem scratch_A (c : Dev nD) (i : grid0.Coords) (a1 : Memref sig .tc .vmem S256x256 .f32) (h1 : a1.IsWhole)
    (a2 : Memref sig .tc .vmem S2000x256 .f32) (h2 : a2.IsWhole) (a3 : Memref sig .tc .vmem S1x256 .f32) (h3 : a3.IsWhole)
    (a4 : Memref sig .tc .vmem S1x256 .f32) (h4 : a4.IsWhole) (hc0 : cond0_0 i) (hc1 : ¬cond0_1 i)
    (x0 : Vec F S256x256 .f32) (x1 : Vec F S2000x256 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x256) hz, View.readCov_unit_zero (S := S1x256) _ hz]
  simp only [View.readAt_eq_ld, h1.read_unread, h2.read_unread, View.ld_unit_zero (S := S256x256) hz, View.ld_unit_zero (S := S2000x256) hz]

/-- The last point: the row left is again the tile sum added to the row found, -/
theorem scratch_C (c : Dev nD) (i : grid0.Coords) (a1 : Memref sig .tc .vmem S256x256 .f32) (h1 : a1.IsWhole)
    (a2 : Memref sig .tc .vmem S2000x256 .f32) (h2 : a2.IsWhole) (a3 : Memref sig .tc .vmem S1x256 .f32) (h3 : a3.IsWhole)
    (a4 : Memref sig .tc .vmem S1x256 .f32) (h4 : a4.IsWhole) (hc0 : ¬cond0_0 i) (hc1 : cond0_1 i)
    (x0 : Vec F S256x256 .f32) (x1 : Vec F S2000x256 .f32) (xs0 : Vec F S1x256 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x256) hz]
  simp only [View.readAt_eq_ld, h1.read_unread, h2.read_unread, h4.read_unread, View.ld_unit_zero (S := S256x256) hz, View.ld_unit_zero (S := S2000x256) hz, View.ld_unit_zero (S := S1x256) hz]

/-- and the output block holds a copy of that row. -/
theorem out_C (c : Dev nD) (i : grid0.Coords) (a1 : Memref sig .tc .vmem S256x256 .f32) (h1 : a1.IsWhole)
    (a2 : Memref sig .tc .vmem S2000x256 .f32) (h2 : a2.IsWhole) (a3 : Memref sig .tc .vmem S1x256 .f32) (h3 : a3.IsWhole)
    (a4 : Memref sig .tc .vmem S1x256 .f32) (h4 : a4.IsWhole) (hc0 : ¬cond0_0 i) (hc1 : cond0_1 i)
    (x0 : Vec F S256x256 .f32) (x1 : Vec F S2000x256 .f32) (xs0 : Vec F S1x256 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x256) hz, View.readCov_unit_zero (S := S1x256) _ hz]
  simp only [View.readAt_eq_ld, h1.read_unread, h2.read_unread, h4.read_unread, View.ld_unit_zero (S := S256x256) hz, View.ld_unit_zero (S := S2000x256) hz, View.ld_unit_zero (S := S1x256) hz]

end Cert.KernelIdeal.Acc

end
-- ==== Proof.Chain.lean ====
/-
  The row of partial sums point by point. After grid point `n` the scratch row is the point's tile sum added to the
  row after point `n - 1`, starting from the cleared row at point `0`: a recursion over the body's one payload, with the
  point's two input blocks as its operands. The frame's own description of the scratch, which goes case by case, is
  this recursion (by induction on the point), and at the last point the output block is the same row.
-/
import proofs.«103835_j74526272520307_1_alg».proof.Proof.Pieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The resident operand's block at a point (the same whole array at every point), at its literal type. -/
abbrev qblk (c : Dev nD) (t : Fin cfg0.N) : Vec F S256x256 .f32 := iblk m c 0 t
/-- The corpus tile of a point: 2000 consecutive rows of the corpus array, at its literal type. -/
abbrev tile (c : Dev nD) (t : Fin cfg0.N) : Vec F S2000x256 .f32 := iblk m c 1 t

/-- The row of partial sums after point `n`. -/
def row (c : Dev nD) : (n : ℕ) → n < cfg0.N → Vec F S1x256 .f32
  | 0, h => k0_pay2 (qblk m c ⟨0, h⟩) (tile m c ⟨0, h⟩) (k0_pay1 (F := F))
  | n + 1, h => k0_pay2 (qblk m c ⟨n + 1, h⟩) (tile m c ⟨n + 1, h⟩) (row c n (Nat.lt_of_succ_lt h))

/-- The scratch after point `n`, as the frame states it, is that row. -/
theorem scratch_eq (c : Dev nD) : ∀ (n : ℕ) (h : n < cfg0.N), (outsAt0 m c n h).2 = row m c n h
  | 0, h => by
    rw [outsAt0_A m c ⟨0, h⟩ (Nat.zero_mod _) (by dsimp only; omega)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)
  | n + 1, h => by
    have hN : cfg0.N = 50 := N_0
    have h0 : ¬(⟨n + 1, h⟩ : Fin cfg0.N).val % 50 = 0 := by dsimp only; omega
    by_cases h1 : (⟨n + 1, h⟩ : Fin cfg0.N).val % 50 = 49
    · rw [outsAt0_C m c ⟨n + 1, h⟩ h0 h1]
      dsimp only
      rw [scratch_C]
      show k0_pay2 _ _ (outsAt0 m c n _).2 = k0_pay2 _ _ (row m c n _)
      rw [scratch_eq c n]
    · rw [outsAt0_B m c ⟨n + 1, h⟩ h0 h1]
      dsimp only
      rw [scratch_B]
      show k0_pay2 _ _ (outsAt0 m c n _).2 = k0_pay2 _ _ (row m c n _)
      rw [scratch_eq c n]

/-- The last grid point. -/
theorem last_lt : 49 < cfg0.N := by rw [show cfg0.N = 50 from N_0]; decide

/-- The output block after the last point is the row after the last point. -/
theorem out_last (c : Dev nD) : (outsAt0 m c 49 last_lt).1 = row m c 49 last_lt := by
  have h0 : ¬(⟨49, last_lt⟩ : Fin cfg0.N).val % 50 = 0 := by decide
  have h1 : (⟨49, last_lt⟩ : Fin cfg0.N).val % 50 = 49 := by decide
  rw [outsAt0_C m c ⟨49, last_lt⟩ h0 h1]
  dsimp only
  rw [out_C]
  show k0_pay2 _ _ (outsAt0 m c 48 _).2 = k0_pay2 _ _ (row m c 48 _)
  rw [scratch_eq m c 48]

end Cert.KernelIdeal.Acc

end
-- ==== Proof.Spec.lean ====
/-
  The mathematics both programs compute, with no program in sight. For a query matrix `e` ([256, 256], row `b` the
  encoded query `b`) and a corpus `cr` ([100000, 256]) the result at `b` is

      (∑ n, exp (−max (‖e b‖² + ‖cr n‖² − 2 · ⟨e b, cr n⟩, 0) / 512)) / 100000

  over the extended reals. The reference spells one corpus row's term as a quotient by `512` of a negation; the
  kernel spells it as a product with `1/512` of `0 − ·`, adds the two squared norms in the other order and multiplies
  the inner product's factors in the other order: the same extended real, because `1/512` is a dyadic rational the
  float word denotes exactly (so the quotient by `512` IS the product with it, at the infinities too), and addition and
  multiplication of extended reals commute. The kernel also sums the corpus rows tile by tile, 50 tiles of 2000
  rows: a regrouping of one finite sum in a commutative monoid.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators
open Idealize.ShloMosaic Idealize.ShloMosaic.ValueIdx

namespace Cert.Rbf

/-- The float word of `512.0` denotes the real `512`. -/
theorem ofBits_512 : Ideal.ofBits .f32 0x44000000#32 = ((512 : ℝ) : EReal) := by
  simp [Ideal.ofBits, Ideal.ieee, -EReal.coe_mul]; norm_num

/-- The float word of `0.001953125` denotes the real `1/512` exactly: it is a power of two. -/
theorem ofBits_inv512 : Ideal.ofBits .f32 0x3B000000#32 = ((1 / 512 : ℝ) : EReal) := by
  simp [Ideal.ofBits, Ideal.ieee, -EReal.coe_mul]; norm_num

/-- One corpus row's term, from the two squared norms and the inner product, in the reference's spelling. -/
def term (E2 C2 D : EReal) : EReal :=
  Ideal.exp (Ideal.div (-(max (E2 + C2 - Ideal.ofBits .f32 0x40000000#32 * D) 0)) (Ideal.ofBits .f32 0x44000000#32))

/-- The kernel's spelling of the same term: the norms added in the other order, the negation written `0 − ·`, the
    quotient by `512` written as the product with `1/512`. -/
theorem kernel_term (E2 C2 D : EReal) :
    Ideal.exp ((0 - max (C2 + E2 - Ideal.ofBits .f32 0x40000000#32 * D) 0) * Ideal.ofBits .f32 0x3B000000#32)
      = term E2 C2 D := by
  unfold term
  rw [ofBits_512, ofBits_inv512, Ideal.div_coe (by norm_num : (512 : ℝ) ≠ 0), zero_sub, add_comm C2 E2]

/-- The query matrix's and the corpus's shapes. -/
abbrev SQ : Shape := ⟨2, ![256, 256]⟩
abbrev SC : Shape := ⟨2, ![100000, 256]⟩

/-- Corpus row `n`'s term for query `b`. -/
def rowTerm (e : SQ.Idx → EReal) (cr : SC.Idx → EReal) (b : Fin 256) (n : Fin 100000) : EReal :=
  term (∑ k : Fin 256, e (ix2 b k) * e (ix2 b k)) (∑ k : Fin 256, cr (ix2 n k) * cr (ix2 n k))
    (∑ k : Fin 256, e (ix2 b k) * cr (ix2 n k))

/-- THE RESULT at query `b`: the sum of the corpus rows' terms, divided by the corpus size. -/
def result (e : SQ.Idx → EReal) (cr : SC.Idx → EReal) (b : Fin 256) : EReal :=
  Ideal.div (∑ n : Fin 100000, rowTerm e cr b n) (Ideal.ofBits .f32 0x47C35000#32)

/-- Row `j` of tile `t` is corpus row `2000 t + j` (reduced into range, so that it is defined at every `t`). -/
def tileRow (t : ℕ) (j : Fin 2000) : Fin 100000 := ⟨(2000 * t + j.val) % 100000, Nat.mod_lt _ (by norm_num)⟩

theorem tileRow_val {t : ℕ} (ht : t < 50) (j : Fin 2000) : (tileRow t j).val = 2000 * t + j.val := by
  have := j.isLt
  exact Nat.mod_eq_of_lt (by omega)

/-- The tile sum of tile `t` for query `b`. -/
def tileSum (e : SQ.Idx → EReal) (cr : SC.Idx → EReal) (b : Fin 256) (t : ℕ) : EReal :=
  ∑ j : Fin 2000, rowTerm e cr b (tileRow t j)

/-- Summing tile by tile is summing over all rows: `(t, j) ↦ 2000 t + j` is a bijection of
    `Fin 50 × Fin 2000` with `Fin 100000`. -/
theorem sum_tiles {M : Type*} [AddCommMonoid M] (φ : Fin 100000 → M) :
    ∑ t ∈ Finset.range 50, ∑ j : Fin 2000, φ (tileRow t j) = ∑ n : Fin 100000, φ n := by
  rw [Finset.sum_range fun t => ∑ j : Fin 2000, φ (tileRow t j), ← Fintype.sum_prod_type']
  rw [← Equiv.sum_comp ((finProdFinEquiv (m := 50) (n := 2000)).trans (finCongr (by norm_num : 50 * 2000 = 100000))) φ]
  refine Finset.sum_congr rfl fun p _ => congrArg φ (Fin.ext ?_)
  rw [tileRow_val p.1.isLt]
  simp [finProdFinEquiv]
  omega

/-- So the tile sums add up to the whole sum. -/
theorem sum_tileSum (e : SQ.Idx → EReal) (cr : SC.Idx → EReal) (b : Fin 256) :
    ∑ t ∈ Finset.range 50, tileSum e cr b t = ∑ n : Fin 100000, rowTerm e cr b n :=
  sum_tiles (rowTerm e cr b)

end Cert.Rbf

end
-- ==== Proof.Region.lean ====
/-
  The idealized kernel's run, read. The region finds the transposed encoded queries in its first array (the host lines
  before it: a matrix product, a bias broadcast over the rows, an addition, a transpose) and the corpus argument in its
  second. Its first window is that whole first array at every grid point; its second window at point `t` is corpus rows
  `2000 t … 2000 t + 1999`. The output window is written back once, after the last point, and its one block is the
  whole `[1, 256]` result array: so that array ends holding the row of partial sums after the last point, and the host
  lines after the region (drop the unit axis, divide by the corpus size) are applied to it.
-/
import proofs.«103835_j74526272520307_1_alg».proof.Proof.Chain
import proofs.«103835_j74526272520307_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-! ## What the region finds -/

/-- The encoded queries, one per row: the product of the first two arguments plus the third broadcast over the rows. -/
def encoded (a0 : FVec F S256x512 .f32) (a1 : FVec F S512x256 .f32) (a2 : FVec F S256 .f32) : FVec F S256x256 .f32 :=
  addf (Host.dotGeneral dot_S256x512_S512x256_S256x256_1_0_0_1_n_n none a0 a1)
    (broadcastInDim S256x256 ![0, 1] bcast_S1x256_S256x256_0_1 (broadcastInDim S1x256 ![1] bcast_S256_S1x256_1 a2))

/-- The region's first array, at its literal type: -/
abbrev qarr (c : Dev nD) : Vec F S256x256 .f32 := V m c main_v4
/-- and its second. -/
abbrev carr (c : Dev nD) : Vec F S100000x256 .f32 := V m c main_arg3

/-- The first array is the transpose of the encoded queries. -/
theorem qarr_eq (c : Dev nD) :
    qarr m c = transpose S256x256 [1, 0] (encoded (m ((c : Thread nD τ).loc main_arg0)) (m ((c : Thread nD τ).loc main_arg1))
      (m ((c : Thread nD τ).loc main_arg2))) transposes_S256x256_S256x256_1_0 := by
  show StableHlo.after hostOps0 (fun b => m (c, b)) (Proc.devRef .tc main_v4) = _
  after_results
  rfl

/-- The second is the corpus argument as launched. -/
theorem carr_eq (c : Dev nD) : carr m c = m ((c : Thread nD τ).loc main_arg3) := V_main_arg3 m c

/-! ## The windows' blocks -/

/-- Where each window's block sits at each grid point. -/
theorem idx_facts : ∀ t : Fin cfg0.N, win0_0.index t 0 = 0 ∧ win0_0.index t 1 = 0 ∧ win0_1.index t 0 = t.val ∧ win0_1.index t 1 = 0 :=
  (by decide +kernel : ∀ t : Fin grid0.N, win0_0.index t 0 = 0 ∧ win0_0.index t 1 = 0 ∧ win0_1.index t 0 = t.val ∧ win0_1.index t 1 = 0)

/-- The first window's block is the whole first array at every point. -/
theorem qblk_eq (c : Dev nD) (t : Fin cfg0.N) : qblk m c t = qarr m c := by
  funext y
  show iblk m c 0 t y = V m c main_v4 y
  unfold iblk
  rw [View.read_apply]
  show V m c main_v4 _ = V m c main_v4 y
  congr 1
  funext a
  apply Fin.ext
  match a with
  | ⟨0, _⟩ => show win0_0.index t 0 * 256 + 1 * (y 0).val = (y 0).val; rw [(idx_facts t).1]; omega
  | ⟨1, _⟩ => show win0_0.index t 1 * 256 + 1 * (y 1).val = (y 1).val; rw [(idx_facts t).2.1]; omega

/-- Row `j` of the corpus tile at point `t` is corpus row `2000 t + j`. -/
theorem tile_at (c : Dev nD) (t : Fin cfg0.N) (j : Fin 2000) (k : Fin 256) :
    tile m c t (ix2 j k) = carr m c (ix2 (Cert.Rbf.tileRow t.val j) k) := by
  have ht : t.val < 50 := lt_of_lt_of_eq t.isLt (show cfg0.N = 50 from N_0)
  show iblk m c 1 t (ix2 j k) = V m c main_arg3 (ix2 (Cert.Rbf.tileRow t.val j) k)
  unfold iblk
  rw [View.read_apply]
  show V m c main_arg3 _ = V m c main_arg3 _
  congr 1
  funext a
  apply Fin.ext
  match a with
  | ⟨0, _⟩ =>
    show win0_1.index t 0 * 2000 + 1 * j.val = (Cert.Rbf.tileRow t.val j).val
    rw [(idx_facts t).2.2.1, Cert.Rbf.tileRow_val ht]; omega
  | ⟨1, _⟩ => show win0_1.index t 1 * 256 + 1 * k.val = k.val; rw [(idx_facts t).2.2.2]; omega

/-! ## The result array after the run -/

/-- The row of partial sums after the last point, as contents of the result array. -/
abbrev outRow (c : Dev nD) : Buf (Elt F) ((c : Thread nD τ).loc main_v5) := row m c 49 last_lt

/-- The one write-back writes it: the output window's block is the whole array. -/
theorem flushed_eq (c : Dev nD) (t : Fin cfg0.N) (hf : (cfg0.win 2).flush t = true) :
    (dats m 0 c).flushed 2 t = ((cfg0.win 2).blk t).view.read (Elt F) (outRow m c) := by
  have hN : cfg0.N = 50 := N_0
  have h49 : t.val = 49 := by have := (flush0_2 t).mp hf; have := t.isLt; omega
  obtain rfl : t = ⟨49, last_lt⟩ := Fin.ext h49
  have ha : (dats m 0 c).after 2 ⟨49, last_lt⟩ = row m c 49 last_lt := (after0_2 m c ⟨49, last_lt⟩).trans (out_last m c)
  show (cfg0.win 2).cut (grid0.coords ⟨49, last_lt⟩) ((dats m 0 c).after 2 ⟨49, last_lt⟩) = _
  rw [ha]
  have hz' : (fun a => win0_2.index ⟨49, last_lt⟩ a * main_v5.ty.shape.size a) = fun _ => 0 :=
    funext fun a => by fin_cases a <;> decide +kernel
  exact (Memref.read_access_unit_zero (Elt F) main_v5 hz' (fun a => by rw [congrFun hz' a]; simp) (outRow m c)).symm

/-- So the result array ends holding that row. -/
theorem final_out (c : Dev nD) : (dats m 0 c).arrAt 2 cfg0.N = outRow m c :=
  (dats m 0 c).arrAt_eq_of_cover 2 (outRow m c) (flushed_eq m c) fun i =>
    ⟨⟨49, last_lt⟩, (flush0_2 _).mpr (by decide), by
      show i ∈ ((View.whole main_v5).slice (win0_2.rect ⟨49, last_lt⟩)).set
      rw [View.set_slice_whole, Rect.mem_set_unit]
      intro a
      have h0 : (i 0 : Nat) < 1 := (i 0).isLt
      have h1 : (i 1 : Nat) < 256 := (i 1).isLt
      match a with
      | ⟨0, _⟩ =>
        show win0_2.index ⟨49, last_lt⟩ 0 * win0_2.size 0 ≤ (i 0 : Nat)
          ∧ (i 0 : Nat) < win0_2.index ⟨49, last_lt⟩ 0 * win0_2.size 0 + win0_2.xsize (grid0.coords ⟨49, last_lt⟩) 0
        rw [show win0_2.index ⟨49, last_lt⟩ 0 * win0_2.size 0 = 0 from by decide +kernel,
          show win0_2.xsize (grid0.coords ⟨49, last_lt⟩) 0 = 1 from by decide +kernel]
        omega
      | ⟨1, _⟩ =>
        show win0_2.index ⟨49, last_lt⟩ 1 * win0_2.size 1 ≤ (i 1 : Nat)
          ∧ (i 1 : Nat) < win0_2.index ⟨49, last_lt⟩ 1 * win0_2.size 1 + win0_2.xsize (grid0.coords ⟨49, last_lt⟩) 1
        rw [show win0_2.index ⟨49, last_lt⟩ 1 * win0_2.size 1 = 0 from by decide +kernel,
          show win0_2.xsize (grid0.coords ⟨49, last_lt⟩) 1 = 256 from by decide +kernel]
        omega⟩

/-! ## The host lines after the region, and the run -/

/-- What the program returns, from the result array's contents: the unit axis dropped, divided by the corpus size. -/
def finish (o : FVec F S1x256 .f32) : FVec F S256 .f32 :=
  Host.divf (shapeCast S256 o shapeCasts_S1x256_S256) (broadcastInDim S256 ![] bcast_S_S256 (constant (F := F) S_ .f32 0x47C35000#32))

/-- The program's result buffer after the lines that follow the region. -/
theorem tail_eq (c : Dev nD) :
    Pipeline.afterTail₀ cfgs (dats m) 0 (V0 m) [hostOps1] c main_v8 = finish (outRow m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v5)
      = outRow m c := (Pipeline.withArrays_arr spec0 launch0.win.arr_inj c _ _ 2).trans (final_out m c)
  rw [e]
  rfl

/-- THE RUN: every weakly fair execution ends with the result buffer at `finish` of the last row of partial sums, and
    the four arguments as launched. -/
theorem run : θ_run defs (onTc (τ := τ) (main (F := F))) ⟨m, fun _ => 0, ρ⟩ fun r => ∀ c : Dev nD,
      r.2.mem ((c.tc : Thread nD τ).loc main_v8) = finish (outRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩) (run_main m ρ)

end Cert.KernelIdeal.Acc

end
-- ==== Proof.LibKeepdims.lean ====
/-
  General layout lemmas, over literal extents and no program: the two column forms a `keepdims` row reduction
  produces. A length-`a` vector viewed as an `[a, 1]` column keeps its entries, and such a column broadcast to
  `[a, b]` repeats entry `p` along row `p`. (The library has the row forms `[a] → [1, a]` and `[1, b] → [a, b]`.)
-/
import Idealize.ShloMosaic.Lib.Pipeline.Value
import Idealize.ShloMosaic.Lib.ValueIdx

noncomputable section

open Idealize.ShloMosaic Idealize.ShloMosaic.ValueIdx

namespace Cert.LibKeepdims

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims

end
-- ==== Proof.Payload.lean ====
/-
  The body's one payload read at an entry, over the extended reals. With `q` the resident operand (the encoded
  queries, one per COLUMN: `q (d, b)` is coordinate `d` of query `b`), `x` a corpus tile (one corpus row per ROW) and
  `acc` the row of partial sums found, the row left at column `b` is

      acc b + ∑ j, exp ((0 − max (‖x j‖² + ‖q · b‖² − 2 · ∑ k, x (j, k) · q (k, b), 0)) · 1/512),

  the sum over the tile's 2000 rows: the lane sums and the matrix product are plain finite sums here, a change of float
  format is the identity, and the two `keepdims` reshapes and broadcasts only move entries. Each tile term is the
  specification's `Rbf.term` of the two squared norms and the inner product.
-/
import proofs.«103835_j74526272520307_1_alg».proof.Proof.Gen.KernelIdeal.Skeleton
import proofs.«103835_j74526272520307_1_alg».proof.Proof.Spec
import proofs.«103835_j74526272520307_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen

/-! ## The body's intermediate values, named -/

/-- The queries' squared norms, as a `[1, 256]` row: column `b` is `∑ d, q (d, b)²`. -/
def qnorm (q : FVec Ideal S256x256 .f32) : FVec Ideal S1x256 .f32 :=
  shapeCast S1x256 (multiReduction .add [0] S256 (mulf q q) 0x00000000#32 reduces_S256x256_S256 (.inl rfl) rfl) shapeCasts_S256_S1x256

/-- The tile rows' squared norms, as a `[2000, 1]` column: row `j` is `∑ k, x (j, k)²`. -/
def cnorm (x : FVec Ideal S2000x256 .f32) : FVec Ideal S2000x1 .f32 :=
  shapeCast S2000x1 (multiReduction .add [1] S2000 (mulf x x) 0x00000000#32 reduces_S2000x256_S2000 (.inl rfl) rfl) shapeCasts_S2000_S2000x1

/-- The inner products of tile rows with queries: the tile times the resident operand, both narrowed first. -/
def inner (q : FVec Ideal S256x256 .f32) (x : FVec Ideal S2000x256 .f32) : FVec Ideal S2000x256 .f32 :=
  matmul dot_S2000x256_S256x256_S2000x256_1_0_0_1_n_n none (truncf .bf16 x bitsLt_bf16_f32) (truncf .bf16 q bitsLt_bf16_f32)
    (constant S2000x256 .f32 0x00000000#32)

/-- The tile's terms: entry `(j, b)` is tile row `j`'s term for query `b`. -/
def terms (q : FVec Ideal S256x256 .f32) (x : FVec Ideal S2000x256 .f32) : FVec Ideal S2000x256 .f32 :=
  exp (mulf (subf (broadcast S2000x256 (Scalar.ofBits .f32 0x00000000#32))
      (maximumf (subf (addf (broadcastTo S2000x256 (cnorm x) broadcasts_S2000x1_S2000x256)
            (broadcastTo S2000x256 (qnorm q) broadcasts_S1x256_S2000x256))
          (mulf (broadcast S2000x256 (Scalar.ofBits .f32 0x40000000#32)) (inner q x)))
        (broadcast S2000x256 (Scalar.ofBits .f32 0x00000000#32))))
    (broadcast S2000x256 (Scalar.ofBits .f32 0x3B000000#32)))

/-- The payload is the found row plus the column sums of the tile's terms. -/
theorem pay2_eq (q : Vec Ideal S256x256 .f32) (x : Vec Ideal S2000x256 .f32) (acc : Vec Ideal S1x256 .f32) :
    k0_pay2 (F := Ideal) q x acc
      = shapeCast S1x256 (addf acc (shapeCast S1x256
          (multiReduction .add [0] S256 (terms (shapeCast S256x256 q shapeCasts_S256x256_S256x256) x) 0x00000000#32
            reduces_S2000x256_S256 (.inl rfl) rfl) shapeCasts_S256_S1x256)) shapeCasts_S1x256_S1x256 := rfl

/-! ## Each of them at an entry -/

theorem qnorm_at (q : FVec Ideal S256x256 .f32) (b : Fin 256) :
    qnorm q (ix2 (0 : Fin 1) b) = ∑ d : Fin 256, q (ix2 d b) * q (ix2 d b) := by
  unfold qnorm
  refine (shapeCast_a_1a_apply _ shapeCasts_S256_S1x256 (0 : Fin 1) b).trans ?_
  refine (Ideal.multiReduction_add_single (mulf q q) 0x00000000#32 reduces_S256x256_S256 (.inl rfl) rfl (ix1 b)).trans ?_
  refine Finset.sum_congr rfl fun d _ => ?_
  have e : reduces_S256x256_S256.lift (ix1 b) d = ix2 (n0 := 256) (n1 := 256) d b :=
    funext fun a => Fin.ext (by match a with | ⟨0, _⟩ => rfl | ⟨1, _⟩ => rfl)
  rw [e]
  rfl

theorem cnorm_at (x : FVec Ideal S2000x256 .f32) (j : Fin 2000) :
    cnorm x (ix2 j (0 : Fin 1)) = ∑ k : Fin 256, x (ix2 j k) * x (ix2 j k) := by
  unfold cnorm
  refine (Cert.LibKeepdims.shapeCast_a_a1_apply _ shapeCasts_S2000_S2000x1 j (0 : Fin 1)).trans ?_
  refine (Ideal.multiReduction_add_single (mulf x x) 0x00000000#32 reduces_S2000x256_S2000 (.inl rfl) rfl (ix1 j)).trans ?_
  refine Finset.sum_congr rfl fun k _ => ?_
  have e : reduces_S2000x256_S2000.lift (ix1 j) k = ix2 (n0 := 2000) (n1 := 256) j k :=
    funext fun a => Fin.ext (by match a with | ⟨0, _⟩ => rfl | ⟨1, _⟩ => rfl)
  rw [e]
  rfl

/-! The matrix product: the four coordinate facts of its dimension numbers, then the sum re-indexed by the one
    contracted coordinate. -/

theorem lhs_inner_0 (i : S2000x256.Idx) (r : dot_S2000x256_S256x256_S2000x256_1_0_0_1_n_n.contr.Idx) :
    (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_inner_1 (i : S2000x256.Idx) (r : dot_S2000x256_S256x256_S2000x256_1_0_0_1_n_n.contr.Idx) :
    (dot_S2000x256_S256x256_S2000x256_1_0_0_1_n_n.lhsIdx i r 1).val = (r ⟨0, by decide⟩).val :=
  dot_S2000x256_S256x256_S2000x256_1_0_0_1_n_n.lhsIdx_val_of_single rfl i r
theorem rhs_inner_0 (i : S2000x256.Idx) (r : dot_S2000x256_S256x256_S2000x256_1_0_0_1_n_n.contr.Idx) :
    (dot_S2000x256_S256x256_S2000x256_1_0_0_1_n_n.rhsIdx i r 0).val = (r ⟨0, by decide⟩).val :=
  dot_S2000x256_S256x256_S2000x256_1_0_0_1_n_n.rhsIdx_val_of_single rfl i r
theorem rhs_inner_1 (i : S2000x256.Idx) (r : dot_S2000x256_S256x256_S2000x256_1_0_0_1_n_n.contr.Idx) :
    (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem inner_at (q : FVec Ideal S256x256 .f32) (x : FVec Ideal S2000x256 .f32) (j : Fin 2000) (b : Fin 256) :
    inner q x (ix2 j b) = ∑ k : Fin 256, x (ix2 j k) * q (ix2 k b) := by
  unfold inner
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 j b) ((contrEquiv1 dot_S2000x256_S256x256_S2000x256_1_0_0_1_n_n 256 rfl rfl).symm k) = ix2 j k := funext fun a => Fin.ext (by
    match a with
    | ⟨0, _⟩ => exact lhs_inner_0 _ _
    | ⟨1, _⟩ => exact (lhs_inner_1 _ _).trans hk)
  have er : dot_S2000x256_S256x256_S2000x256_1_0_0_1_n_n.rhsIdx (ix2 j b) ((contrEquiv1 dot_S2000x256_S256x256_S2000x256_1_0_0_1_n_n 256 rfl rfl).symm k) = ix2 k b := funext fun a => Fin.ext (by
    match a with
    | ⟨0, _⟩ => exact (rhs_inner_0 _ _).trans hk
    | ⟨1, _⟩ => exact rhs_inner_1 _ _)
  rw [el, er]
  rfl

/-- Entry `(j, b)` of the tile's terms is the specification's term of tile row `j` and query `b`. -/
theorem terms_at (q : FVec Ideal S256x256 .f32) (x : FVec Ideal S2000x256 .f32) (j : Fin 2000) (b : Fin 256) :
    terms q x (ix2 j b)
      = Cert.Rbf.term (∑ d : Fin 256, q (ix2 d b) * q (ix2 d b)) (∑ k : Fin 256, x (ix2 j k) * x (ix2 j k))
          (∑ k : Fin 256, q (ix2 k b) * x (ix2 j k)) := by
  unfold terms
  show Ideal.exp ((Ideal.ofBits .f32 0x00000000#32
      - max (broadcastTo S2000x256 (cnorm x) broadcasts_S2000x1_S2000x256 (ix2 j b)
            + broadcastTo S2000x256 (qnorm q) broadcasts_S1x256_S2000x256 (ix2 j b)
          - Ideal.ofBits .f32 0x40000000#32 * inner q x (ix2 j b)) (Ideal.ofBits .f32 0x00000000#32))
      * Ideal.ofBits .f32 0x3B000000#32) = _
  rw [Cert.LibKeepdims.broadcastTo_a1_ab_apply, broadcastTo_1b_ab_apply, cnorm_at, qnorm_at, inner_at,
    Ideal.ofBits_zero_f32, Finset.sum_congr rfl fun k _ => mul_comm (x (ix2 j k)) (q (ix2 k b))]
  exact Cert.Rbf.kernel_term _ _ _

/-- THE PAYLOAD AT COLUMN `b`: the found row's entry plus the tile's 2000 terms for query `b`. -/
theorem pay2_at (q : Vec Ideal S256x256 .f32) (x : Vec Ideal S2000x256 .f32) (acc : Vec Ideal S1x256 .f32) (b : Fin 256) :
    k0_pay2 (F := Ideal) q x acc (ix2 (0 : Fin 1) b)
      = acc (ix2 (0 : Fin 1) b) + ∑ j : Fin 2000,
          Cert.Rbf.term (∑ d : Fin 256, q (ix2 d b) * q (ix2 d b)) (∑ k : Fin 256, x (ix2 j k) * x (ix2 j k))
            (∑ k : Fin 256, q (ix2 k b) * x (ix2 j k)) := by
  rw [pay2_eq, shapeCast_self, shapeCast_self]
  show acc (ix2 (0 : Fin 1) b) + shapeCast S1x256 _ shapeCasts_S256_S1x256 (ix2 (0 : Fin 1) b) = _
  refine congrArg (acc (ix2 (0 : Fin 1) b) + ·) ?_
  refine (shapeCast_a_1a_apply _ shapeCasts_S256_S1x256 (0 : Fin 1) b).trans ?_
  refine (Ideal.multiReduction_add_single (terms q x) 0x00000000#32 reduces_S2000x256_S256 (.inl rfl) rfl (ix1 b)).trans ?_
  refine Finset.sum_congr rfl fun j _ => ?_
  have e : reduces_S2000x256_S256.lift (ix1 b) j = ix2 (n0 := 2000) (n1 := 256) j b :=
    funext fun a => Fin.ext (by match a with | ⟨0, _⟩ => rfl | ⟨1, _⟩ => rfl)
  rw [e]
  exact terms_at q x j b

/-- The cleared row is zero everywhere. -/
theorem pay1_at (b : Fin 256) : k0_pay1 (F := Ideal) (ix2 (0 : Fin 1) b) = 0 := by
  unfold k0_pay1
  rw [shapeCast_self]
  exact Ideal.ofBits_zero_f32

end Cert.KernelIdeal.Acc

end
-- ==== Proof.Bridge.lean ====
/-
  The idealized kernel computes the specification. At the extended reals the row of partial sums after grid point `n`
  holds, at column `b`, the first `n + 1` tile sums of query `b`: each point adds its tile's 2000 terms to what it
  found, the first point to the cleared row. The resident operand is the transpose of the encoded queries, so its
  column `b` is query `b`, and row `j` of tile `t` is corpus row `2000 t + j`: every term is the specification's. After
  the last point all 50 tile sums are in, which is the sum over the whole corpus, and the lines after the region
  divide it by the corpus size.
-/
import proofs.«103835_j74526272520307_1_alg».proof.Proof.Region
import proofs.«103835_j74526272520307_1_alg».proof.Proof.Payload
import Idealize.ShloMosaic.Lib.ValueLayout

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The encoded queries of a launch memory, -/
abbrev enc (c : Dev nD) : FVec Ideal S256x256 .f32 :=
  encoded (m ((c : Thread nD τ).loc main_arg0)) (m ((c : Thread nD τ).loc main_arg1)) (m ((c : Thread nD τ).loc main_arg2))
/-- and its corpus. -/
abbrev corpus (c : Dev nD) : FVec Ideal S100000x256 .f32 := m ((c : Thread nD τ).loc main_arg3)

/-- Column `b` of the resident operand is query `b`. -/
theorem qblk_at (c : Dev nD) (t : Fin cfg0.N) (d b : Fin 256) : qblk m c t (ix2 d b) = enc m c (ix2 b d) := by
  rw [qblk_eq, qarr_eq]
  exact transpose_ix2_apply _ transposes_S256x256_S256x256_1_0 d b

/-- Row `j` of tile `t` is corpus row `2000 t + j`. -/
theorem tile_corpus (c : Dev nD) (t : Fin cfg0.N) (j : Fin 2000) (k : Fin 256) :
    tile m c t (ix2 j k) = corpus m c (ix2 (Cert.Rbf.tileRow t.val j) k) := by
  rw [tile_at, carr_eq]

/-- What a point adds at column `b`: its tile sum. -/
theorem point_adds (c : Dev nD) (t : Fin cfg0.N) (acc : Vec Ideal S1x256 .f32) (b : Fin 256) :
    k0_pay2 (F := Ideal) (qblk m c t) (tile m c t) acc (ix2 (0 : Fin 1) b)
      = acc (ix2 (0 : Fin 1) b) + Cert.Rbf.tileSum (enc m c) (corpus m c) b t.val := by
  rw [pay2_at]
  refine congrArg (acc (ix2 (0 : Fin 1) b) + ·) (Finset.sum_congr rfl fun j _ => ?_)
  unfold Cert.Rbf.rowTerm
  simp only [qblk_at, tile_corpus]

/-- The row after point `n`, at column `b`: the first `n + 1` tile sums. -/
theorem row_at (c : Dev nD) (b : Fin 256) : ∀ (n : ℕ) (h : n < cfg0.N),
    row m c n h (ix2 (0 : Fin 1) b) = ∑ t ∈ Finset.range (n + 1), Cert.Rbf.tileSum (enc m c) (corpus m c) b t
  | 0, h => by
    show k0_pay2 (F := Ideal) (qblk m c ⟨0, h⟩) (tile m c ⟨0, h⟩) (k0_pay1 (F := Ideal)) (ix2 (0 : Fin 1) b) = _
    rw [point_adds, pay1_at, zero_add, Finset.sum_range_one]
  | n + 1, h => by
    show k0_pay2 (F := Ideal) (qblk m c ⟨n + 1, h⟩) (tile m c ⟨n + 1, h⟩) (row m c n (Nat.lt_of_succ_lt h)) (ix2 (0 : Fin 1) b) = _
    rw [point_adds, row_at c b n, Finset.sum_range_succ _ (n + 1)]

/-- The lines after the region, at an entry: the row's entry divided by the corpus size. -/
theorem finish_at (o : FVec Ideal S1x256 .f32) (b : Fin 256) :
    finish (F := Ideal) o (ix1 b) = Ideal.div (o (ix2 (0 : Fin 1) b)) (Ideal.ofBits .f32 0x47C35000#32) := by
  unfold finish
  show Ideal.div (shapeCast S256 o shapeCasts_S1x256_S256 (ix1 b)) (Ideal.ofBits .f32 0x47C35000#32) = _
  rw [shapeCast_1a_a_apply]

/-- The specification's result as an array over the queries. -/
def answer (e : FVec Ideal S256x256 .f32) (cr : FVec Ideal S100000x256 .f32) : FVec Ideal S256 .f32 :=
  fun i => Cert.Rbf.result e cr (i 0)

/-- THE KERNEL'S RESULT is the specification's, of the encoded queries and the corpus. -/
theorem kernel_answer (c : Dev nD) : finish (F := Ideal) (outRow m c) = answer (enc m c) (corpus m c) := by
  funext i
  obtain ⟨b, rfl⟩ : ∃ b : Fin 256, i = ix1 b := ⟨i 0, eq_ix1 i⟩
  show _ = Cert.Rbf.result (enc m c) (corpus m c) b
  unfold Cert.Rbf.result
  rw [finish_at]
  show Ideal.div (row m c 49 last_lt (ix2 (0 : Fin 1) b)) _ = _
  rw [row_at m c b 49 last_lt, Cert.Rbf.sum_tileSum]

end Cert.KernelIdeal.Acc

end
-- ==== Proof.RefValue.lean ====
/-
  The reference computes the specification. Read one operation at a time, its result at query `b` is
  `(0 + ∑ n, exp (−max ((0 + ‖e b‖²) + (0 + ‖cr n‖²) − 2 · ⟨e b, cr n⟩, 0) / 512)) / 100000` with `e` its own
  stage `%3` (the encoded queries, one per row) and `cr` the corpus argument: the two `keepdims` broadcasts and
  the transpose only move entries, and the zeros the three sums start from add nothing.
-/
import proofs.«103835_j74526272520307_1_alg».proof.Proof.Gen.ReferenceIdeal.Read
import proofs.«103835_j74526272520307_1_alg».proof.Proof.Spec

noncomputable section

open scoped BigOperators
open Idealize.ShloMosaic Idealize.ShloMosaic.ValueIdx

namespace Cert.ReferenceIdeal.RefValue

open Cert.ReferenceIdeal Cert.ReferenceIdeal.Read

/-- The reference's result at query `b` is the specification's, of its stage `%3` and the corpus. -/
theorem result_at (x0 : (⟨S256x512, .f32⟩ : BufTy).Contents (Elt Ideal)) (x1 : (⟨S512x256, .f32⟩ : BufTy).Contents (Elt Ideal))
    (x2 : (⟨S256, .f32⟩ : BufTy).Contents (Elt Ideal)) (x3 : (⟨S100000x256, .f32⟩ : BufTy).Contents (Elt Ideal)) (b : Fin 256) :
    val_main_v26 (F := Ideal) x0 x1 x2 x3 (ix1 b) = Cert.Rbf.result (val_main_v3 (F := Ideal) x0 x1 x2) x3 b := by
  have iq : ∀ (n : Fin 100000) (k : Fin 256),
      idx_main_v5 (idx_main_v6 (idx_main_v10 (idx_main_v24 (ix1 b) n))) k = ix2 b k := fun n k =>
    funext fun a => Fin.ext (by match a with | ⟨0, _⟩ => rfl | ⟨1, _⟩ => rfl)
  have ic : ∀ (n : Fin 100000) (k : Fin 256),
      idx_main_v8 (idx_main_v9 (idx_main_v11 (idx_main_v24 (ix1 b) n))) k = ix2 n k := fun n k =>
    funext fun a => Fin.ext (by match a with | ⟨0, _⟩ => rfl | ⟨1, _⟩ => rfl)
  have il : ∀ (n : Fin 100000) (k : Fin 256), lidx_main_v14 (idx_main_v24 (ix1 b) n) k = ix2 b k := fun n k =>
    funext fun a => Fin.ext (by match a with | ⟨0, _⟩ => rfl | ⟨1, _⟩ => rfl)
  have ir : ∀ (n : Fin 100000) (k : Fin 256), idx_main_v13 (ridx_main_v14 (idx_main_v24 (ix1 b) n) k) = ix2 n k := fun n k =>
    funext fun a => Fin.ext (by match a with | ⟨0, _⟩ => rfl | ⟨1, _⟩ => rfl)
  have key : ∀ n : Fin 100000, val_main_v23 (F := Ideal) x0 x1 x2 x3 (idx_main_v24 (ix1 b) n)
      = Cert.Rbf.rowTerm (val_main_v3 (F := Ideal) x0 x1 x2) x3 b n := fun n => by
    rw [val_main_v23_apply, val_main_v22_apply, val_main_v21_apply, val_main_cst_3_apply, val_main_v20_apply,
      val_main_v19_apply, val_main_v18_apply, val_main_cst_2_apply, val_main_v17_apply, val_main_v16_apply,
      val_main_v15_apply, val_main_cst_1_apply, val_main_v14_apply, val_main_v12_apply, val_main_v10_apply,
      val_main_v6_apply, val_main_v5_apply, val_main_v11_apply, val_main_v9_apply, val_main_v8_apply,
      val_main_cst_apply, val_main_cst_0_apply]
    simp only [val_main_v4_apply, val_main_v7_apply, val_main_v13_apply, iq, ic, il, ir, Ideal.hostDivf_def,
      Ideal.hostUnary_exp_def, Ideal.hostNegf_def, Ideal.negf_def, Ideal.maximumf_def, Ideal.subf_def, Ideal.addf_def,
      Ideal.mulf_def, Ideal.ofBits_def, Ideal.ofBits_zero_f32, zero_add]
    rfl
  rw [val_main_v26_apply, val_main_v25_apply, val_main_cst_5_apply, val_main_v24_apply, val_main_cst_4_apply]
  unfold Cert.Rbf.result
  simp only [Ideal.hostDivf_def, Ideal.ofBits_def, Ideal.ofBits_zero_f32, zero_add, key]

end Cert.ReferenceIdeal.RefValue

end
-- ==== Proof.lean ====
/-
  The certificate of a Gaussian-kernel similarity: for 256 queries `e b` (a linear encoding of the first argument by
  the second and third) and a corpus of 100000 rows `cr n` (the fourth argument), the result at `b` is

      (∑ n, exp (−max (‖e b‖² + ‖cr n‖² − 2 · ⟨e b, cr n⟩, 0) / 512)) / 100000.

  The reference computes it in one pass over a [256, 100000] matrix of squared distances. The kernel streams the corpus
  through 50 tiles of 2000 rows against the transposed queries, keeps a [1, 256] row of partial sums across the grid
  points (cleared at the first, copied out after the last), and the host divides by the corpus size. Over the extended
  reals the two agree on every input: the kernel's factor `1/512` is the exact reciprocal of the reference's divisor
  `512` (a power of two), the narrowing of the matrix product's operands is the identity, the two squared norms and the
  inner product's factors are only written in the other order, `0 − x` is `−x`, and a sum taken tile by tile is the
  sum. Nothing here needs the inputs to be finite.

  The three frames are the generated ones (the reference's is its generated run with the result dropped); the
  idealization rewrote nothing, so `preserves` is `True`; `algebraic` puts the kernel's run (its result read off the frame:
  Pieces, Chain, Region, Payload, Bridge) beside the reference's generated run (read one operation at a time: RefValue),
  both at the specification's `result` (Spec) of the same encoded queries and corpus.
-/
import proofs.«103835_j74526272520307_1_alg».proof.Defs
import proofs.«103835_j74526272520307_1_alg».proof.Proof.Gen.Kernel
import proofs.«103835_j74526272520307_1_alg».proof.Proof.Gen.Kernel.Frame
import proofs.«103835_j74526272520307_1_alg».proof.Proof.Gen.KernelIdeal
import proofs.«103835_j74526272520307_1_alg».proof.Proof.Gen.KernelIdeal.Frame
import proofs.«103835_j74526272520307_1_alg».proof.Proof.Gen.ReferenceIdeal
import proofs.«103835_j74526272520307_1_alg».proof.Proof.Gen.Pre_finite_inputs
import proofs.«103835_j74526272520307_1_alg».proof.Proof.Gen.ReferenceIdeal.Run
import proofs.«103835_j74526272520307_1_alg».proof.Proof.Gen.ReferenceIdeal.Read
import proofs.«103835_j74526272520307_1_alg».proof.Proof.Bridge
import proofs.«103835_j74526272520307_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array is the specification's, of ITS encoded queries — the same product, broadcast and sum as
    the kernel's host lines before the region — and the corpus. -/
theorem reference_answer (x0 : FVec Ideal Cert.KernelIdeal.S256x512 .f32) (x1 : FVec Ideal Cert.KernelIdeal.S512x256 .f32)
    (x2 : FVec Ideal Cert.KernelIdeal.S256 .f32) (x3 : FVec Ideal Cert.KernelIdeal.S100000x256 .f32) :
    Cert.ReferenceIdeal.Read.val_main_v26 (F := Ideal) x0 x1 x2 x3
      = Cert.KernelIdeal.Acc.answer (Cert.KernelIdeal.Acc.encoded x0 x1 x2) x3 := by
  funext i
  obtain ⟨b, rfl⟩ : ∃ b : Fin 256, i = ix1 b := ⟨i 0, eq_ix1 i⟩
  exact Cert.ReferenceIdeal.RefValue.result_at x0 x1 x2 x3 b

/-- Both idealized programs, run from memories that agree on the four arguments, end with the specification's result of
    the encoded queries and the corpus. -/
theorem algebraic : Cert.algebraic_KernelIdeal_ReferenceIdeal := by
  intro m ρ m' ρ' _ hagree
  refine ⟨fun c => Cert.KernelIdeal.Acc.answer (Cert.KernelIdeal.Acc.enc m c) (Cert.KernelIdeal.Acc.corpus m c), ?_, ?_⟩
  · exact (θ_run Cert.KernelIdeal.defs _ _).mono
      (fun _ h c => ⟨(h c).1.trans (Cert.KernelIdeal.Acc.kernel_answer m c), (h c).2⟩)
      (Cert.KernelIdeal.Acc.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v26_eq _ _ _ _).trans ?_
    rw [reference_answer, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
